-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  main_v23

def fn {F : FTy → Type} [FloatOps F] (main_arg0 : FVec F S8192x1024 .f32) (main_arg1 : FVec F S8192x1024 .f32) (main_arg2 : FVec F S8192x1024 .f32) (main_arg3 : FVec F S1024x1024 .f32) (main_arg4 : FVec F S1x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S8192x1024 : Shape := ⟨2, ![8192, 1024]⟩
abbrev S1024x1024 : Shape := ⟨2, ![1024, 1024]⟩
abbrev S1x1024 : Shape := ⟨2, ![1, 1024]⟩
abbrev S3x8192x1024 : Shape := ⟨3, ![3, 8192, 1024]⟩
abbrev S512x1024 : Shape := ⟨2, ![512, 1024]⟩
abbrev S3x512x1024 : Shape := ⟨3, ![3, 512, 1024]⟩
abbrev S1x512x1024 : Shape := ⟨3, ![1, 512, 1024]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1x1024, .f32⟩
  | .hbm, ⟨5, _⟩ => ⟨S1024x1024, .f32⟩
  | .hbm, ⟨6, _⟩ => ⟨S3x8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x1024, .f32⟩
  | .local _ .vmem, ⟨7, _⟩ => ⟨S1x1024, .f32⟩
  | .local _ .vmem, ⟨8, _⟩ => ⟨S3x512x1024, .f32⟩
  | .local _ .vmem, ⟨9, _⟩ => ⟨S3x512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S3x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S1024x1024_S1024x1024_1_0 : S1024x1024.Transposes [1, 0] S1024x1024
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  broadcasts_S1x1024_S512x1024 : S1x1024.Broadcasts S512x1024
  bitsLt_bf16_f32 : FTy.bits .bf16 < FTy.bits .f32
  inb_S3x512x1024_S1x512x1024_0_0_0 : ∀ a, (![0, 0, 0] : Fin 3 → Nat) a + S1x512x1024.size a ≤ S3x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  inb_S3x512x1024_S1x512x1024_1_0_0 : ∀ a, (![1, 0, 0] : Fin 3 → Nat) a + S1x512x1024.size a ≤ S3x512x1024.size a
  inb_S3x512x1024_S1x512x1024_2_0_0 : ∀ a, (![2, 0, 0] : Fin 3 → Nat) a + S1x512x1024.size a ≤ S3x512x1024.size a
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .f32 = 32 ∨ (Rect.block (s := S8192x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x1024.size a
  hwx0_2 : ∀ i : grid0.Coords, EltTy.bits .f32 = 32 ∨ (Rect.block (s := S8192x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S3x512x1024.size a ≤ S3x8192x1024.size a
  hwx0_5 : ∀ i : grid0.Coords, EltTy.bits .f32 = 32 ∨ (Rect.block (s := S3x8192x1024) S3x512x1024.size (cc0_transform_5 i) (hinb0_5 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S3x512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S1x8192x1024 : Shape := ⟨3, ![1, 8192, 1024]⟩
abbrev S3x8192x1024 : Shape := ⟨3, ![3, 8192, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S1024x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S1x8192x1024, .f32⟩
  | .hbm, ⟨38, _⟩ => ⟨S1x8192x1024, .f32⟩
  | .hbm, ⟨39, _⟩ => ⟨S1x8192x1024, .f32⟩
  | .hbm, ⟨40, _⟩ => ⟨S3x8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]

class Facts₀ : Prop where
  bcast_S_S1x1024 : S_.BroadcastsInDim S1x1024 (![] : Fin 0 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  transposes_S1024x1024_S1024x1024_1_0 : S1024x1024.Transposes [1, 0] S1024x1024
  bcast_S8192x1024_S1x8192x1024_1_2 : S8192x1024.BroadcastsInDim S1x8192x1024 (![1, 2] : Fin 2 → Fin S1x8192x1024.rank)
  concatenates_S1x8192x1024_S1x8192x1024_S1x8192x1024_S3x8192x1024_d0 : Shape.Concatenates [S1x8192x1024, S1x8192x1024, S1x8192x1024] S3x8192x1024 0
  dot_S8192x1024_S1024x1024_S8192x1024_1_0_0_1_n_n_wf : DotDims.WF S8192x1024 S1024x1024 S8192x1024 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf

class Facts : Prop extends Facts₀ where

variable [Facts]
-- ==== Proof.Drift.lean ====
/-
  The vector field this certificate is about, on the extended reals.

  For a batch of states `X` (one state per row), an error term `EX`, gains `W`, a coupling matrix read through its
  transpose `AT` (`AT (k, c) = A (c, k)`) and a target row `T`, with the saturation `sat x = x² / (1 + x²)`:

      drift (r, c) = (-1 · X(r,c) + Σ_k sat (X(r,k)) · AT(k,c))
                       + (((-1 · (W(r,c) · ((X(r,c) + EX(r,c)) - T(0,c)))) · sat (T(0,c))) · sat (X(r,c)))

  and the result stacks three slabs: the drift, its negation, and zeros. The literals stay as the words both programs
  print (`1.0`, `-1.0`, `0.0`), so no word is ever evaluated except the zero the negated slab subtracts from.
  `drift_of_rows`: a block of 512 consecutive rows of `X`, `EX`, `W` determines those rows of the drift, because a
  row of the drift reads only that row of `X`, `EX`, `W` (the sum over `k` runs along the row).
-/
import Idealize.ShloMosaic.PureOps.Ideal
import Idealize.ShloMosaic.Lib.ValueIdx

noncomputable section

open scoped BigOperators

namespace Cert.Drift

open Idealize.ShloMosaic Idealize.ShloMosaic.ValueIdx

/-- A matrix of extended reals. -/
abbrev Mat (r c : Nat) : Type := (⟨2, ![r, c]⟩ : Shape).Idx → EReal
/-- Three stacked matrices. -/
abbrev Slabs (r c : Nat) : Type := (⟨3, ![3, r, c]⟩ : Shape).Idx → EReal

/-- The saturation `x² / (1 + x²)`. -/
def sat (x : EReal) : EReal := Ideal.div (x * x) (Ideal.ofBits .f32 0x3F800000#32 + x * x)

/-- The drift at row `r`, column `c`. -/
def drift {R : Nat} (X EX W : Mat R 1024) (AT : Mat 1024 1024) (T : Mat 1 1024) (r : Fin R) (c : Fin 1024) : EReal :=
  (Ideal.ofBits .f32 0xBF800000#32 * X (ix2 r c) + ∑ k : Fin 1024, sat (X (ix2 r k)) * AT (ix2 k c))
    + Ideal.ofBits .f32 0xBF800000#32 * (W (ix2 r c) * (X (ix2 r c) + EX (ix2 r c) - T (ix2 (0 : Fin 1) c)))
        * sat (T (ix2 (0 : Fin 1) c)) * sat (X (ix2 r c))

/-- The stacked result: slab 0 the drift, slab 1 its negation, slab 2 zeros. -/
def stacked {R : Nat} (X EX W : Mat R 1024) (AT : Mat 1024 1024) (T : Mat 1 1024) : Slabs R 1024 := fun i =>
  if (i 0).val = 0 then drift X EX W AT T (i 1) (i 2)
  else if (i 0).val = 1 then -drift X EX W AT T (i 1) (i 2)
  else Ideal.ofBits .f32 0x00000000#32

variable {R : Nat} (X EX W : Mat R 1024) (AT : Mat 1024 1024) (T : Mat 1 1024)

theorem stacked_slab0 (r : Fin R) (c : Fin 1024) : stacked X EX W AT T (ix3 (0 : Fin 3) r c) = drift X EX W AT T r c :=
  if_pos rfl

theorem stacked_slab1 (r : Fin R) (c : Fin 1024) : stacked X EX W AT T (ix3 (1 : Fin 3) r c) = -drift X EX W AT T r c :=
  (if_neg (show ¬((1 : Fin 3).val = 0) by decide)).trans (if_pos rfl)

theorem stacked_slab2 (r : Fin R) (c : Fin 1024) :
    stacked X EX W AT T (ix3 (2 : Fin 3) r c) = Ideal.ofBits .f32 0x00000000#32 :=
  (if_neg (show ¬((2 : Fin 3).val = 0) by decide)).trans (if_neg (show ¬((2 : Fin 3).val = 1) by decide))

/-- Subtracting from the zero word negates: the zero word is the extended real `0`. -/
theorem zero_word_sub (x : EReal) : Ideal.ofBits .f32 0x00000000#32 - x = -x := by
  rw [show Ideal.ofBits .f32 0x00000000#32 = 0 by simp [Ideal.ofBits, Ideal.ieee], sub_eq_add_neg, zero_add]

/-- Rows `b·512 … b·512 + 511` of the drift from the same rows of `X`, `EX`, `W`. -/
theorem drift_of_rows (b : Nat) {x ex w : Mat 512 1024} {X EX W : Mat 8192 1024} (AT : Mat 1024 1024) (T : Mat 1 1024)
    (hx : ∀ (p : Fin 512) (q : Fin 1024) (r : Fin 8192), r.val = b * 512 + p.val → x (ix2 p q) = X (ix2 r q))
    (hex : ∀ (p : Fin 512) (q : Fin 1024) (r : Fin 8192), r.val = b * 512 + p.val → ex (ix2 p q) = EX (ix2 r q))
    (hw : ∀ (p : Fin 512) (q : Fin 1024) (r : Fin 8192), r.val = b * 512 + p.val → w (ix2 p q) = W (ix2 r q))
    (p : Fin 512) (r : Fin 8192) (q : Fin 1024) (hr : r.val = b * 512 + p.val) :
    drift x ex w AT T p q = drift X EX W AT T r q := by
  have hs : ∑ k : Fin 1024, sat (x (ix2 p k)) * AT (ix2 k q) = ∑ k : Fin 1024, sat (X (ix2 r k)) * AT (ix2 k q) :=
    Finset.sum_congr rfl fun k _ => by rw [hx p k r hr]
  unfold drift
  rw [hs, hx p q r hr, hex p q r hr, hw p q r hr]

/-- The same for the three slabs. -/
theorem stacked_of_rows (b : Nat) {x ex w : Mat 512 1024} {X EX W : Mat 8192 1024} (AT : Mat 1024 1024) (T : Mat 1 1024)
    (hx : ∀ (p : Fin 512) (q : Fin 1024) (r : Fin 8192), r.val = b * 512 + p.val → x (ix2 p q) = X (ix2 r q))
    (hex : ∀ (p : Fin 512) (q : Fin 1024) (r : Fin 8192), r.val = b * 512 + p.val → ex (ix2 p q) = EX (ix2 r q))
    (hw : ∀ (p : Fin 512) (q : Fin 1024) (r : Fin 8192), r.val = b * 512 + p.val → w (ix2 p q) = W (ix2 r q))
    (s : Fin 3) (p : Fin 512) (r : Fin 8192) (q : Fin 1024) (hr : r.val = b * 512 + p.val) :
    stacked x ex w AT T (ix3 s p q) = stacked X EX W AT T (ix3 s r q) := by
  have hd := drift_of_rows b AT T hx hex hw p r q hr
  show (if s.val = 0 then drift x ex w AT T p q else if s.val = 1 then -drift x ex w AT T p q else _)
    = (if s.val = 0 then drift X EX W AT T r q else if s.val = 1 then -drift X EX W AT T r q else _)
  rw [hd]

/-- The same at an index of the block and an index of the array given by their coordinates. -/
theorem stacked_of_rows_at (b : Nat) {x ex w : Mat 512 1024} {X EX W : Mat 8192 1024} (AT : Mat 1024 1024) (T : Mat 1 1024)
    (hx : ∀ (p : Fin 512) (q : Fin 1024) (r : Fin 8192), r.val = b * 512 + p.val → x (ix2 p q) = X (ix2 r q))
    (hex : ∀ (p : Fin 512) (q : Fin 1024) (r : Fin 8192), r.val = b * 512 + p.val → ex (ix2 p q) = EX (ix2 r q))
    (hw : ∀ (p : Fin 512) (q : Fin 1024) (r : Fin 8192), r.val = b * 512 + p.val → w (ix2 p q) = W (ix2 r q))
    (j : (⟨3, ![3, 512, 1024]⟩ : Shape).Idx) (i : (⟨3, ![3, 8192, 1024]⟩ : Shape).Idx)
    (e0 : (i 0).val = (j 0).val) (e1 : (i 1).val = b * 512 + (j 1).val) (e2 : (i 2).val = (j 2).val) :
    stacked x ex w AT T j = stacked X EX W AT T i := by
  obtain ⟨s, p, q, rfl⟩ : ∃ (s : Fin 3) (p : Fin 512) (q : Fin 1024), j = ix3 s p q := ⟨j 0, j 1, j 2, eq_ix3 j⟩
  obtain ⟨s', r, q', rfl⟩ : ∃ (s' : Fin 3) (r : Fin 8192) (q' : Fin 1024), i = ix3 s' r q' := ⟨i 0, i 1, i 2, eq_ix3 i⟩
  have hs : s' = s := Fin.ext e0
  have hq : q' = q := Fin.ext e2
  subst hs hq
  exact stacked_of_rows b AT T hx hex hw s' p r q' e1

end Cert.Drift

end
-- ==== Proof.Block.lean ====
/-
  What one grid step of the idealized kernel leaves in its output block, as the stacked drift of its input blocks.

  The body loads a block of 512 rows of `X`, `EX`, `W`, the whole transposed coupling matrix and the target row; its
  matrix product into a zero accumulator is, at an output element (p, q), the plain sum over the contracted coordinate
  (the bf16 casts of the operands are the identity on extended reals); the row broadcast reads the target row; so the
  value it stores into slab 0 is the drift of the block, the value it stores into slab 1 is zero minus that, and slab 2
  is the zero word: the three stores tile the block, and the block is `Drift.stacked` of the loaded blocks.
-/
import proofs.«151055_j56461640073243_1_alg».proof.Proof.Gen.KernelIdeal.Frame
import proofs.«151055_j56461640073243_1_alg».proof.Proof.Drift
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Block

open Cert.KernelIdeal Cert.KernelIdeal.Gen Idealize.ShloMosaic Idealize.ShloMosaic.ValueIdx Cert.Drift

/-! ## The matrix product at an element -/

theorem lhs_row (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_contr (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_contr (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_col (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The product of a [512, 1024] block with a [1024, 1024] matrix into the zero accumulator, at (p, q): the sum over
    the contracted coordinate `k` of left (p, k) times right (k, q). -/
theorem product_at (l : FVec Ideal S512x1024 .bf16) (r : FVec Ideal S1024x1024 .bf16) (p : Fin 512) (q : Fin 1024) :
    matmul dot_S512x1024_S1024x1024_S512x1024_1_0_0_1_n_n none l r (constant S512x1024 .f32 0x00000000#32) (ix2 p q)
      = ∑ k : Fin 1024, l (ix2 p k) * r (ix2 k q) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p q) ((contrEquiv1 dot_S512x1024_S1024x1024_S512x1024_1_0_0_1_n_n 1024 rfl rfl).symm k) = ix2 p k := funext fun a => Fin.ext (by
    match a with
    | ⟨0, _⟩ => exact lhs_row _ _
    | ⟨1, _⟩ => exact (lhs_contr _ _).trans hk)
  have er : dot_S512x1024_S1024x1024_S512x1024_1_0_0_1_n_n.rhsIdx (ix2 p q) ((contrEquiv1 dot_S512x1024_S1024x1024_S512x1024_1_0_0_1_n_n 1024 rfl rfl).symm k) = ix2 k q := funext fun a => Fin.ext (by
    match a with
    | ⟨0, _⟩ => exact (rhs_contr _ _).trans hk
    | ⟨1, _⟩ => exact rhs_col _ _)
  rw [el, er]

/-! ## The stored values at an element -/

variable (x0 x1 x2 : Vec Ideal S512x1024 .f32) (x3 : Vec Ideal S1024x1024 .f32) (x4 : Vec Ideal S1x1024 .f32)

/-- The value the body computes for slab 0 is the drift of the loaded blocks. -/
theorem drift_of_block (p : Fin 512) (q : Fin 1024) :
    k0_pay3 x0 x1 x2 x3 x4 (ix2 p q) = drift x0 x1 x2 x3 x4 p q := by
  unfold k0_pay3 drift
  show (Ideal.ofBits .f32 0xBF800000#32 * x0 (ix2 p q)
        + matmul dot_S512x1024_S1024x1024_S512x1024_1_0_0_1_n_n none
            (truncf .bf16 (divf (mulf x0 x0) (addf (broadcast S512x1024 (Scalar.ofBits .f32 0x3F800000#32)) (mulf x0 x0))) bitsLt_bf16_f32)
            (truncf .bf16 (shapeCast S1024x1024 x3 shapeCasts_S1024x1024_S1024x1024) bitsLt_bf16_f32)
            (constant S512x1024 .f32 0x00000000#32) (ix2 p q))
      + Ideal.ofBits .f32 0xBF800000#32
          * (x2 (ix2 p q) * (x0 (ix2 p q) + x1 (ix2 p q) - broadcastTo S512x1024 x4 broadcasts_S1x1024_S512x1024 (ix2 p q)))
          * broadcastTo S512x1024 (divf (mulf x4 x4) (addf (broadcast S1x1024 (Scalar.ofBits .f32 0x3F800000#32)) (mulf x4 x4)))
              broadcasts_S1x1024_S512x1024 (ix2 p q)
          * sat (x0 (ix2 p q)) = _
  rw [product_at, broadcastTo_1b_ab_apply, broadcastTo_1b_ab_apply, shapeCast_self]
  rfl

/-- A slab's local index (u, p, q) sits at (s, p, q) of the block. -/
theorem emb_slab (o : Nat) (s : Fin 3) (hs : s.val = o)
    (inb : ∀ a, (![o, 0, 0] : Fin 3 → Nat) a + S1x512x1024.size a ≤ S3x512x1024.size a)
    (u : Fin 1) (p : Fin 512) (q : Fin 1024) :
    (Rect.unit (s := S3x512x1024) ![o, 0, 0] S1x512x1024.size inb).emb (ix3 u p q) = ix3 s p q := by
  funext a; apply Fin.ext
  match a with
  | ⟨0, _⟩ => show o + 1 * u.val = s.val; omega
  | ⟨1, _⟩ => show 0 + 1 * p.val = p.val; omega
  | ⟨2, _⟩ => show 0 + 1 * q.val = q.val; omega

theorem hz : (![0, 0] : Fin 2 → Nat) = fun _ => 0 := funext fun a => by fin_cases a <;> rfl

/-- Slab 0's stored value at (u, p, q). -/
theorem slab0_at (u : Fin 1) (p : Fin 512) (q : Fin 1024) :
    k0_pay4 x0 x1 x2 x3 x4 (ix3 u p q) = drift x0 x1 x2 x3 x4 p q := by
  unfold k0_pay4
  exact (shapeCast_ab_1ab_apply (k0_pay3 x0 x1 x2 x3 x4) shapeCasts_S512x1024_S1x512x1024 u p q).trans (drift_of_block x0 x1 x2 x3 x4 p q)

/-- Slab 1's stored value at (u, p, q): zero minus the drift. -/
theorem slab1_at (u : Fin 1) (p : Fin 512) (q : Fin 1024) :
    k0_pay1 (k0_pay5 x0 x1 x2 x3 x4) (ix3 u p q) = -drift x0 x1 x2 x3 x4 p q := by
  unfold k0_pay1
  refine (shapeCast_ab_1ab_apply (k0_pay5 x0 x1 x2 x3 x4) shapeCasts_S512x1024_S1x512x1024 u p q).trans ?_
  unfold k0_pay5
  show Ideal.ofBits .f32 0x00000000#32 - k0_pay3 x0 x1 x2 x3 x4 (ix2 p q) = _
  rw [drift_of_block, zero_word_sub]

/-- Slab 2's stored value at (u, p, q): the zero word. -/
theorem slab2_at (u : Fin 1) (p : Fin 512) (q : Fin 1024) :
    (k0_pay2 (F := Ideal)) (ix3 u p q) = Ideal.ofBits .f32 0x00000000#32 := by
  unfold k0_pay2
  exact (shapeCast_ab_1ab_apply (broadcast S512x1024 (Scalar.ofBits (F := Ideal) .f32 0x00000000#32)) shapeCasts_S512x1024_S1x512x1024 u p q).trans rfl

/-! ## The block -/

/-- After the body the output block is the stacked drift of the loaded blocks. -/
theorem out_eq_stacked : out0_5 x0 x1 x2 x3 x4 = stacked x0 x1 x2 x3 x4 := by
  funext y
  unfold out0_5
  rw [View.ld_unit_zero (S := S512x1024) hz, View.ld_unit_zero (S := S512x1024) hz, View.ld_unit_zero (S := S512x1024) hz,
    View.ld_unit_zero (S := S1024x1024) hz, View.ld_unit_zero (S := S1x1024) hz]
  refine View.canon_apply_of_pieces (Val := Elt Ideal) (S := S3x512x1024) (e := .f32) (stacked x0 x1 x2 x3 x4) _ (fun pc hpc => ?_) y (cover0_5 _ _ _ y)
  rcases List.mem_cons.mp hpc with rfl | hpc
  · intro x
    obtain ⟨u, p, q, rfl⟩ : ∃ (u : Fin 1) (p : Fin 512) (q : Fin 1024), x = ix3 u p q := ⟨x 0, x 1, x 2, eq_ix3 x⟩
    show (k0_pay2 (F := Ideal)) (ix3 u p q) = stacked x0 x1 x2 x3 x4 (r0_5.emb (ix3 u p q))
    rw [emb_slab 2 2 rfl, slab2_at, stacked_slab2]
  rcases List.mem_cons.mp hpc with rfl | hpc
  · intro x
    obtain ⟨u, p, q, rfl⟩ : ∃ (u : Fin 1) (p : Fin 512) (q : Fin 1024), x = ix3 u p q := ⟨x 0, x 1, x 2, eq_ix3 x⟩
    show k0_pay1 (k0_pay5 x0 x1 x2 x3 x4) (ix3 u p q) = stacked x0 x1 x2 x3 x4 (r0_4.emb (ix3 u p q))
    rw [emb_slab 1 1 rfl, slab1_at, stacked_slab1]
  obtain rfl := List.mem_singleton.mp hpc
  intro x
  obtain ⟨u, p, q, rfl⟩ : ∃ (u : Fin 1) (p : Fin 512) (q : Fin 1024), x = ix3 u p q := ⟨x 0, x 1, x 2, eq_ix3 x⟩
  show k0_pay4 x0 x1 x2 x3 x4 (ix3 u p q) = stacked x0 x1 x2 x3 x4 (r0_3.emb (ix3 u p q))
  rw [emb_slab 0 0 rfl, slab0_at, stacked_slab0]

end Cert.KernelIdeal.Block

end
-- ==== Proof.Stack.lean ====
/-
  The idealized kernel's result array: the stacked drift of its arguments.

  Grid step `t` works on rows `512 t … 512 t + 511`: its three row blocks are those rows of the state, the error term and
  the gains, the coupling block is the whole transposed coupling matrix (written by the transposition that precedes the
  call) and the target block the whole target row. What the step writes back is its output block, the stacked drift of
  those blocks (`Block.out_eq_stacked`), and a row of the drift reads only that row of the three batched arguments
  (`Drift.stacked_of_rows_at`): so the step writes rows `512 t …` of the three slabs of the array-level stacked drift.
  The sixteen steps' blocks cover the [3, 8192, 1024] result, row `r` by step `r / 512`.
-/
import proofs.«151055_j56461640073243_1_alg».proof.Proof.Gen.KernelIdeal.Value
import proofs.«151055_j56461640073243_1_alg».proof.Proof.Block
import Idealize.ShloMosaic.Lib.Pipeline.Value
import Idealize.ShloMosaic.Lib.StableHlo.Run
import Idealize.ShloMosaic.Lib.ValueIdx
import Idealize.ShloMosaic.Lib.ValueLayout

noncomputable section

open Idealize.ShloMosaic Idealize.ShloMosaic.TcCoe Idealize.SL.Sem
open Idealize.ShloMosaic.Pipeline (Dat)

namespace Cert.KernelIdeal.Stack

open Cert.KernelIdeal Cert.KernelIdeal.Gen Cert.KernelIdeal.Value Idealize.ShloMosaic.ValueIdx Cert.Drift

variable (m : (ℓ : Loc nD τ sig) → Buf (Elt Ideal) ℓ) (ρ : Dev nD → PrngReg)

/-- The index maps over the sixteen grid steps: the three batched inputs and the output move along the rows with the
    step, every other block index is zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = 0 ∧ win0_5.index t (1 : Fin 3) = t.val ∧ win0_5.index t (2 : Fin 3) = 0 :=
  (by decide +kernel : ∀ t : Fin grid0.N, _)

/-! ## The input blocks as rows of the arguments -/

/-- The state's block at step `t` is rows `512 t …` of the state. -/
theorem state_rows (c : Dev nD) (t : Fin cfg0.N) (p : Fin 512) (q : Fin 1024) (r : Fin 8192) (hr : r.val = t.val * 512 + p.val) :
    (iblk m c 0 t : Vec Ideal S512x1024 .f32) (ix2 p q)
      = (m ((c : Thread nD τ).loc main_arg0) : S8192x1024.Idx → EReal) (ix2 r q) := by
  obtain ⟨e0, e1, -⟩ := idx_facts t
  show V m c main_arg0 (((cfg0.win 0).blk t).view.emb (ix2 p q)) = _
  rw [V_main_arg0]
  refine congrArg _ (funext fun a => Fin.ext ?_)
  match a with
  | ⟨0, _⟩ => show win0_0.index t (0 : Fin 2) * 512 + 1 * p.val = r.val; omega
  | ⟨1, _⟩ => show win0_0.index t (1 : Fin 2) * 1024 + 1 * q.val = q.val; omega

/-- The error term's block at step `t` is rows `512 t …` of the error term. -/
theorem error_rows (c : Dev nD) (t : Fin cfg0.N) (p : Fin 512) (q : Fin 1024) (r : Fin 8192) (hr : r.val = t.val * 512 + p.val) :
    (iblk m c 1 t : Vec Ideal S512x1024 .f32) (ix2 p q)
      = (m ((c : Thread nD τ).loc main_arg1) : S8192x1024.Idx → EReal) (ix2 r q) := by
  obtain ⟨-, -, e0, e1, -⟩ := idx_facts t
  show V m c main_arg1 (((cfg0.win 1).blk t).view.emb (ix2 p q)) = _
  rw [V_main_arg1]
  refine congrArg _ (funext fun a => Fin.ext ?_)
  match a with
  | ⟨0, _⟩ => show win0_1.index t (0 : Fin 2) * 512 + 1 * p.val = r.val; omega
  | ⟨1, _⟩ => show win0_1.index t (1 : Fin 2) * 1024 + 1 * q.val = q.val; omega

/-- The gains' block at step `t` is rows `512 t …` of the gains. -/
theorem gain_rows (c : Dev nD) (t : Fin cfg0.N) (p : Fin 512) (q : Fin 1024) (r : Fin 8192) (hr : r.val = t.val * 512 + p.val) :
    (iblk m c 2 t : Vec Ideal S512x1024 .f32) (ix2 p q)
      = (m ((c : Thread nD τ).loc main_arg2) : S8192x1024.Idx → EReal) (ix2 r q) := by
  obtain ⟨-, -, -, -, e0, e1, -⟩ := idx_facts t
  show V m c main_arg2 (((cfg0.win 2).blk t).view.emb (ix2 p q)) = _
  rw [V_main_arg2]
  refine congrArg _ (funext fun a => Fin.ext ?_)
  match a with
  | ⟨0, _⟩ => show win0_2.index t (0 : Fin 2) * 512 + 1 * p.val = r.val; omega
  | ⟨1, _⟩ => show win0_2.index t (1 : Fin 2) * 1024 + 1 * q.val = q.val; omega

/-- The array the coupling window stages is the transposed coupling matrix: the one host operation before the call. -/
theorem coupling_entry (c : Dev nD) :
    (V m c main_v0 : S1024x1024.Idx → EReal)
      = transpose S1024x1024 [1, 0] (m ((c : Thread nD τ).loc main_arg3)) transposes_S1024x1024_S1024x1024_1_0 := by
  dsimp only [Gen.V, Gen.hostOps0]; after_results

/-- The coupling block at every step is the whole transposed coupling matrix. -/
theorem coupling_block (c : Dev nD) (t : Fin cfg0.N) :
    (iblk m c 3 t : Vec Ideal S1024x1024 .f32)
      = fun i => (m ((c : Thread nD τ).loc main_arg3) : S1024x1024.Idx → EReal) (ix2 (i 1) (i 0)) := by
  obtain ⟨-, -, -, -, -, -, e0, e1, -⟩ := idx_facts t
  funext y
  obtain ⟨k, q, rfl⟩ : ∃ (k q : Fin 1024), y = ix2 k q := ⟨y 0, y 1, eq_ix2 y⟩
  show V m c main_v0 (((cfg0.win 3).blk t).view.emb (ix2 k q)) = _
  have he : ((cfg0.win 3).blk t).view.emb (ix2 k q) = ix2 k q := funext fun a => Fin.ext (by
    match a with
    | ⟨0, _⟩ => show win0_3.index t (0 : Fin 2) * 1024 + 1 * k.val = k.val; omega
    | ⟨1, _⟩ => show win0_3.index t (1 : Fin 2) * 1024 + 1 * q.val = q.val; omega)
  rw [he, coupling_entry m c]
  exact transpose_ix2_apply _ _ k q

/-- The target block at every step is the whole target row. -/
theorem target_block (c : Dev nD) (t : Fin cfg0.N) :
    (iblk m c 4 t : Vec Ideal S1x1024 .f32) = (m ((c : Thread nD τ).loc main_arg4) : S1x1024.Idx → EReal) := by
  obtain ⟨-, -, -, -, -, -, -, -, e0, e1, -⟩ := idx_facts t
  funext y
  show V m c main_arg4 (((cfg0.win 4).blk t).view.emb y) = _
  rw [V_main_arg4]
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 1024 + 1 * (y 1).val = (y 1).val; omega

/-! ## The result array -/

/-- The stacked drift of the argument arrays, the coupling matrix read transposed. -/
abbrev result (c : Dev nD) : S3x8192x1024.Idx → EReal :=
  stacked (m ((c : Thread nD τ).loc main_arg0)) (m ((c : Thread nD τ).loc main_arg1)) (m ((c : Thread nD τ).loc main_arg2))
    (fun i => (m ((c : Thread nD τ).loc main_arg3) : S1024x1024.Idx → EReal) (ix2 (i 1) (i 0)))
    (m ((c : Thread nD τ).loc main_arg4))

/-- What step `t` writes back is block `t` of `result`. -/
theorem flushed_eq (c : Dev nD) (t : Fin cfg0.N) :
    (dats m 0 c).flushed 5 t = ((cfg0.win 5).blk t).view.read (Elt Ideal) (result m c) := by
  obtain ⟨-, -, -, -, -, -, -, -, -, -, e0, e1, e2⟩ := idx_facts t
  rw [flushed5]
  funext j
  show out0_5 (iblk m c 0 t) (iblk m c 1 t) (iblk m c 2 t) (iblk m c 3 t) (iblk m c 4 t) j
    = result m c (((cfg0.win 5).blk t).view.emb j)
  refine (congrFun (Block.out_eq_stacked (iblk m c 0 t) (iblk m c 1 t) (iblk m c 2 t) (iblk m c 3 t) (iblk m c 4 t)) j).trans ?_
  rw [coupling_block m c t, target_block m c t]
  refine stacked_of_rows_at t.val _ _ (state_rows m c t) (error_rows m c t) (gain_rows m c t) j _ ?_ ?_ ?_
  · show win0_5.index t (0 : Fin 3) * 3 + 1 * (j 0).val = (j 0).val; omega
  · show win0_5.index t (1 : Fin 3) * 512 + 1 * (j 1).val = t.val * 512 + (j 1).val; omega
  · show win0_5.index t (2 : Fin 3) * 1024 + 1 * (j 2).val = (j 2).val; omega

/-- An index of the result is in step `t`'s block iff each coordinate is in the block's range on its axis. -/
theorem mem_blk (t : Fin cfg0.N) (i : S3x8192x1024.Idx) :
    i ∈ ((cfg0.win 5).blk t).view.set ↔ ∀ a : Fin 3, win0_5.index t a * S3x512x1024.size a ≤ (i a).val
      ∧ (i a).val < win0_5.index t a * S3x512x1024.size a + S3x512x1024.size a := by
  show i ∈ ((View.whole main_v1).slice (win0_5.rect t)).set ↔ _
  rw [View.set_slice_whole, Rect.mem_set_unit]
  exact Iff.rfl

/-- Every index of the result is in the block of the step its row falls in. -/
theorem covered (i : S3x8192x1024.Idx) :
    ∃ t : Fin cfg0.N, (cfg0.win 5).flush t = true ∧ i ∈ ((cfg0.win 5).blk t).view.set := by
  have hN : cfg0.N = 16 := N_0
  have h0 : (i 0).val < 3 := (i 0).isLt
  have h1 : (i 1).val < 8192 := (i 1).isLt
  have h2 : (i 2).val < 1024 := (i 2).isLt
  have ht : (i 1).val / 512 < cfg0.N := by rw [hN]; omega
  obtain ⟨-, -, -, -, -, -, -, -, -, -, e0, e1, e2⟩ := idx_facts ⟨(i 1).val / 512, ht⟩
  refine ⟨⟨(i 1).val / 512, ht⟩, flush0_5 _, ?_⟩
  rw [mem_blk]
  intro a
  match a with
  | ⟨0, _⟩ =>
    show win0_5.index ⟨(i 1).val / 512, ht⟩ (0 : Fin 3) * 3 ≤ (i 0).val ∧ (i 0).val < win0_5.index ⟨(i 1).val / 512, ht⟩ (0 : Fin 3) * 3 + 3
    omega
  | ⟨1, _⟩ =>
    show win0_5.index ⟨(i 1).val / 512, ht⟩ (1 : Fin 3) * 512 ≤ (i 1).val ∧ (i 1).val < win0_5.index ⟨(i 1).val / 512, ht⟩ (1 : Fin 3) * 512 + 512
    have e1' : win0_5.index ⟨(i 1).val / 512, ht⟩ (1 : Fin 3) = (i 1).val / 512 := e1
    omega
  | ⟨2, _⟩ =>
    show win0_5.index ⟨(i 1).val / 512, ht⟩ (2 : Fin 3) * 1024 ≤ (i 2).val ∧ (i 2).val < win0_5.index ⟨(i 1).val / 512, ht⟩ (2 : Fin 3) * 1024 + 1024
    omega

/-- After the run the result array is the stacked drift. -/
theorem final (c : Dev nD) : (dats m 0 c).arrAt 5 cfg0.N = result m c :=
  (dats m 0 c).arrAt_eq_of_cover 5 (result m c) (fun t _ => flushed_eq m c t) covered

/-- The idealized kernel runs and ends with the result array at the stacked drift and the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.Stack

end
-- ==== Proof.LibStackSlabs.lean ====
/-
  Three slabs stacked along a leading axis, read at an element.

  A concatenation along axis 0 of three arrays of shape [1, n, k] is an array of shape [3, n, k]; its element
  (s, r, c) is slab `s` at (0, r, c): the slabs before slab `s` take up `s` places of the joined axis, and a slab's
  own extent there is one.
-/
import Idealize.ShloMosaic.Lib.Pipeline.Value
import Idealize.ShloMosaic.Lib.ValueIdx

noncomputable section

namespace Cert.StackSlabs

open Idealize.ShloMosaic Idealize.ShloMosaic.ValueIdx

variable {α : Type} {n k : Nat}

/-- Off the joined axis a slab's index (0, r, c) and the stack's index (s, r, c) have the same coordinates. -/
theorem off_axis (s : Fin 3) (r : Fin n) (c : Fin k) (hr : (⟨3, ![1, n, k]⟩ : Shape).rank = (⟨3, ![3, n, k]⟩ : Shape).rank)
    (b : Fin (⟨3, ![1, n, k]⟩ : Shape).rank) (hb : b.cast hr ≠ (0 : Fin 3)) :
    ((ix3 (0 : Fin 1) r c) b).val = ((ix3 s r c) (b.cast hr)).val := by
  match b with
  | ⟨0, _⟩ => exact absurd rfl hb
  | ⟨1, _⟩ => rfl
  | ⟨2, _⟩ => rfl

/-- The stack of three slabs `x₀`, `x₁`, `x₂` read at (s, r, c) is slab `s` at (0, r, c). -/
theorem stack3_apply (x₀ x₁ x₂ : (⟨3, ![1, n, k]⟩ : Shape).Idx → α)
    (h : Shape.Concatenates (([⟨⟨3, ![1, n, k]⟩, x₀⟩, ⟨⟨3, ![1, n, k]⟩, x₁⟩, ⟨⟨3, ![1, n, k]⟩, x₂⟩] :
      List ((s : Shape) × (s.Idx → α))).map (·.1)) ⟨3, ![3, n, k]⟩ 0)
    (s : Fin 3) (r : Fin n) (c : Fin k) :
    concatenate ⟨3, ![3, n, k]⟩ 0 [⟨⟨3, ![1, n, k]⟩, x₀⟩, ⟨⟨3, ![1, n, k]⟩, x₁⟩, ⟨⟨3, ![1, n, k]⟩, x₂⟩] h (ix3 s r c)
      = (match s with | ⟨0, _⟩ => x₀ | ⟨1, _⟩ => x₁ | ⟨2, _⟩ => x₂) (ix3 (0 : Fin 1) r c) := by
  match s with
  | ⟨0, _⟩ =>
    exact concatenate_apply_piece (0 : Fin 3) [⟨⟨3, ![1, n, k]⟩, x₀⟩, ⟨⟨3, ![1, n, k]⟩, x₁⟩, ⟨⟨3, ![1, n, k]⟩, x₂⟩] h (ix3 (⟨0, by decide⟩ : Fin 3) r c) 0 (show (0 : Nat) < 3 by decide) ⟨3, ![1, n, k]⟩ x₀ rfl rfl 0 rfl
      (ix3 (0 : Fin 1) r c) (off_axis _ r c rfl) (by rfl)
  | ⟨1, _⟩ =>
    exact concatenate_apply_piece (0 : Fin 3) [⟨⟨3, ![1, n, k]⟩, x₀⟩, ⟨⟨3, ![1, n, k]⟩, x₁⟩, ⟨⟨3, ![1, n, k]⟩, x₂⟩] h (ix3 (⟨1, by decide⟩ : Fin 3) r c) 1 (show (1 : Nat) < 3 by decide) ⟨3, ![1, n, k]⟩ x₁ rfl rfl 1 rfl
      (ix3 (0 : Fin 1) r c) (off_axis _ r c rfl) (by rfl)
  | ⟨2, _⟩ =>
    exact concatenate_apply_piece (0 : Fin 3) [⟨⟨3, ![1, n, k]⟩, x₀⟩, ⟨⟨3, ![1, n, k]⟩, x₁⟩, ⟨⟨3, ![1, n, k]⟩, x₂⟩] h (ix3 (⟨2, by decide⟩ : Fin 3) r c) 2 (show (2 : Nat) < 3 by decide) ⟨3, ![1, n, k]⟩ x₂ rfl rfl 2 rfl
      (ix3 (0 : Fin 1) r c) (off_axis _ r c rfl) (by rfl)

end Cert.StackSlabs

end
-- ==== Proof.RefStack.lean ====
/-
  The reference's result, read one operation at a time, is the stacked drift of its arguments.

  The host program computes the saturation of the state and of the target by a quotient, the control term from a
  product with the broadcast target row, the coupling by a general product with the transposed coupling matrix — at
  an element (r, c) the sum over `k` of sat (X (r, k)) times A (c, k) —, adds up the drift, negates it, and joins the
  drift, its negation and a zero array along a new leading axis. Element (s, r, c) of the result is therefore the
  drift at (r, c) for s = 0, minus the drift for s = 1, and the zero word for s = 2.
-/
import proofs.«151055_j56461640073243_1_alg».proof.Proof.Gen.ReferenceIdeal.Read
import proofs.«151055_j56461640073243_1_alg».proof.Proof.Drift
import proofs.«151055_j56461640073243_1_alg».proof.Proof.LibStackSlabs
import Idealize.ShloMosaic.Lib.ValueIdx

noncomputable section

open scoped BigOperators

namespace Cert.ReferenceIdeal.Stack

open Cert.ReferenceIdeal Cert.ReferenceIdeal.Gen Cert.ReferenceIdeal.Read Idealize.ShloMosaic Idealize.ShloMosaic.ValueIdx Cert.Drift

/-! ## The layout operations' index maps at coordinates -/

theorem row_of_v6 (r : Fin 8192) (c : Fin 1024) : idx_main_v6 (ix2 r c) = ix2 (0 : Fin 1) c :=
  funext fun a => Fin.ext (by match a with | ⟨0, _⟩ => rfl | ⟨1, _⟩ => rfl)
theorem row_of_v11 (r : Fin 8192) (c : Fin 1024) : idx_main_v11 (ix2 r c) = ix2 (0 : Fin 1) c :=
  funext fun a => Fin.ext (by match a with | ⟨0, _⟩ => rfl | ⟨1, _⟩ => rfl)
theorem left_of_v21 (r : Fin 8192) (c k : Fin 1024) : lidx_main_v21 (ix2 r c) k = ix2 r k :=
  funext fun a => Fin.ext (by match a with | ⟨0, _⟩ => rfl | ⟨1, _⟩ => rfl)
theorem right_of_v21 (r : Fin 8192) (c k : Fin 1024) : idx_main_v20 (ridx_main_v21 (ix2 r c) k) = ix2 c k :=
  funext fun a => Fin.ext (by match a with | ⟨0, _⟩ => rfl | ⟨1, _⟩ => rfl)
theorem slab_of_v27 (u : Fin 1) (r : Fin 8192) (c : Fin 1024) : idx_main_v27 (ix3 u r c) = ix2 r c :=
  funext fun a => Fin.ext (by match a with | ⟨0, _⟩ => rfl | ⟨1, _⟩ => rfl)
theorem slab_of_v28 (u : Fin 1) (r : Fin 8192) (c : Fin 1024) : idx_main_v28 (ix3 u r c) = ix2 r c :=
  funext fun a => Fin.ext (by match a with | ⟨0, _⟩ => rfl | ⟨1, _⟩ => rfl)
theorem slab_of_v29 (u : Fin 1) (r : Fin 8192) (c : Fin 1024) : idx_main_v29 (ix3 u r c) = ix2 r c :=
  funext fun a => Fin.ext (by match a with | ⟨0, _⟩ => rfl | ⟨1, _⟩ => rfl)

/-! ## The stages at an element -/

variable (x0 x1 x2 : (⟨S8192x1024, .f32⟩ : BufTy).Contents (Elt Ideal)) (x3 : (⟨S1024x1024, .f32⟩ : BufTy).Contents (Elt Ideal))
  (x4 : (⟨S1x1024, .f32⟩ : BufTy).Contents (Elt Ideal))

/-- The state's saturation. -/
theorem sat_state (i : S8192x1024.Idx) : val_main_v17 (F := Ideal) x0 i = sat (x0 i) := by
  rw [val_main_v17_apply, val_main_v16_apply, val_main_v15_apply]; rfl

/-- The target's saturation. -/
theorem sat_target (j : S1x1024.Idx) : val_main_v4 (F := Ideal) x4 j = sat (x4 j) := by
  rw [val_main_v4_apply, val_main_v3_apply, val_main_v2_apply]; rfl

/-- The control term before its product with the state's saturation. -/
theorem control_at (r : Fin 8192) (c : Fin 1024) :
    val_main_v12 (F := Ideal) x0 x1 x2 x4 (ix2 r c)
      = Ideal.ofBits .f32 0xBF800000#32 * (x2 (ix2 r c) * (x0 (ix2 r c) + x1 (ix2 r c) - x4 (ix2 (0 : Fin 1) c)))
          * sat (x4 (ix2 (0 : Fin 1) c)) := by
  rw [val_main_v12_apply, val_main_v10_apply, val_main_v9_apply, val_main_v8_apply, val_main_v7_apply, val_main_v6_apply,
    val_main_v11_apply, row_of_v6, row_of_v11, sat_target]
  rfl

/-- The coupling term: the saturated state times the transposed coupling matrix. -/
theorem coupling_at (r : Fin 8192) (c : Fin 1024) :
    val_main_v21 (F := Ideal) x0 x3 (ix2 r c) = ∑ k : Fin 1024, sat (x0 (ix2 r k)) * x3 (ix2 c k) := by
  rw [val_main_v21_apply]
  refine Finset.sum_congr rfl fun k _ => ?_
  rw [val_main_v20_apply, left_of_v21, right_of_v21, sat_state]

/-- The drift stage is `Drift.drift` over the coupling matrix read transposed. -/
theorem drift_of_ref (r : Fin 8192) (c : Fin 1024) :
    val_main_v24 (F := Ideal) x0 x1 x2 x3 x4 (ix2 r c) = drift x0 x1 x2 (fun i => x3 (ix2 (i 1) (i 0))) x4 r c := by
  rw [val_main_v24_apply, val_main_v22_apply, val_main_v19_apply, val_main_v18_apply, val_main_v23_apply, coupling_at,
    control_at, sat_state]
  rfl

/-- The result is the stacked drift. -/
theorem result_eq :
    val_main_v30 (F := Ideal) x0 x1 x2 x3 x4 = stacked x0 x1 x2 (fun i => x3 (ix2 (i 1) (i 0))) x4 := by
  funext i
  obtain ⟨s, r, c, rfl⟩ : ∃ (s : Fin 3) (r : Fin 8192) (c : Fin 1024), i = ix3 s r c := ⟨i 0, i 1, i 2, eq_ix3 i⟩
  unfold val_main_v30
  refine (Cert.StackSlabs.stack3_apply _ _ _ _ s r c).trans ?_
  match s with
  | ⟨0, _⟩ =>
    show val_main_v27 (F := Ideal) x0 x1 x2 x3 x4 (ix3 (0 : Fin 1) r c) = stacked _ _ _ _ _ (ix3 (0 : Fin 3) r c)
    rw [val_main_v27_apply, slab_of_v27, drift_of_ref, stacked_slab0]
  | ⟨1, _⟩ =>
    show val_main_v28 (F := Ideal) x0 x1 x2 x3 x4 (ix3 (0 : Fin 1) r c) = stacked _ _ _ _ _ (ix3 (1 : Fin 3) r c)
    rw [val_main_v28_apply, slab_of_v28, val_main_v25_apply, drift_of_ref, stacked_slab1]
    rfl
  | ⟨2, _⟩ =>
    show val_main_v29 (F := Ideal) (ix3 (0 : Fin 1) r c) = stacked _ _ _ _ _ (ix3 (2 : Fin 3) r c)
    rw [val_main_v29_apply, slab_of_v29, val_main_v26_apply, stacked_slab2]
    rfl

end Cert.ReferenceIdeal.Stack

end
-- ==== Proof.lean ====
/-
  The certificate of the drift kernel: three frames, the idealization and the equivalence over the extended reals.

  The kernel evaluates, for a batch of 8192 states of dimension 1024, the vector field
  `dx = -x + sat(x)·Aᵀ + u·sat(x)` with `sat(x) = x²/(1+x²)` and the control `u = -(w·((x+e) - target))·sat(target)`,
  and writes the three slabs `dx`, `-dx`, `0`. Gridded over blocks of 512 rows, with the coupling matrix transposed on
  the host and fed to the matrix unit in bf16, it is compared with the plain jnp program.

  At the ideal instance both programs compute `Drift.stacked` of the arguments (Proof/Drift.lean): the kernel block
  by block (Proof/Block.lean: one grid step's output block; Proof/Stack.lean: the sixteen blocks tile the result), the
  reference operation by operation (Proof/RefStack.lean). No algebraic law is needed beyond `0 - y = -y` for the
  negated slab — the two sides apply the same operations in the same order, the bf16 casts are the identity and both
  matrix products are the same sum over the contracted coordinate — so the finiteness precondition is never opened.
  The idealization rewrote nothing, so `preserves` is trivial; the kernels' frames are the generated ones and the
  reference's frame is its run with the result dropped.
-/
import proofs.«151055_j56461640073243_1_alg».proof.Defs
import proofs.«151055_j56461640073243_1_alg».proof.Proof.Gen.Kernel
import proofs.«151055_j56461640073243_1_alg».proof.Proof.Gen.Kernel.Frame
import proofs.«151055_j56461640073243_1_alg».proof.Proof.Gen.KernelIdeal
import proofs.«151055_j56461640073243_1_alg».proof.Proof.Gen.KernelIdeal.Frame
import proofs.«151055_j56461640073243_1_alg».proof.Proof.Gen.KernelIdeal.Value
import proofs.«151055_j56461640073243_1_alg».proof.Proof.Gen.ReferenceIdeal
import proofs.«151055_j56461640073243_1_alg».proof.Proof.Gen.ReferenceIdeal.Run
import proofs.«151055_j56461640073243_1_alg».proof.Proof.Gen.ReferenceIdeal.Read
import proofs.«151055_j56461640073243_1_alg».proof.Proof.Gen.Pre_finite_inputs
import proofs.«151055_j56461640073243_1_alg».proof.Proof.Stack
import proofs.«151055_j56461640073243_1_alg».proof.Proof.RefStack
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both runs end with the result at the stacked drift of the (agreeing) arguments. -/
theorem algebraic : Cert.algebraic_KernelIdeal_ReferenceIdeal := by
  intro m ρ m' ρ' _ hagree
  refine ⟨fun c => Cert.KernelIdeal.Stack.result m c, Cert.KernelIdeal.Stack.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v30_eq _ _ _ _ _).trans (Cert.ReferenceIdeal.Stack.result_eq _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
